-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 63
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One SAGE layer's dense combine as a function of whole arrays, index by index, and the one law of the extended
  reals the two programs differ by.

  At a row `p` and a column `q` the layer is
    (∑ₖ mean[p,k] · wl[k,q]) + b[0,q] + ∑ₖ feat[p,k] · wr[k,q],
  with `wl`, `wr` the already transposed weights and `b` the bias as a row. The kernel divides a neighbour sum by
  the clamped degree as a product with the reciprocal `1 / max(deg, 1)`, the reference as a quotient by
  `max(deg, 1)`: on the extended reals the divisor `max a 1` is never zero, so both are `x · (max a 1)⁻¹`, whatever
  `x` and `a` are (infinite ones included); no finiteness is used.
-/
import Idealize.ShloMosaic.PureOps.Ideal
import Idealize.ShloMosaic.PureOps.Ideal.Laws
import Idealize.ShloMosaic.Lib.ValueIdx
import Idealize.ShloMosaic.Lib.IdealHost

noncomputable section

namespace Cert.Layer

open Idealize.ShloMosaic Idealize.ShloMosaic.ValueIdx

/-- The clamped degree is at least one, hence not zero. -/
theorem max_one_ne_zero (a : EReal) : max a 1 ≠ 0 := by
  intro h0
  have h1 : (1 : EReal) ≤ max a 1 := le_max_right _ _
  rw [h0] at h1
  exact absurd h1 (by exact_mod_cast (show ¬ ((1 : ℝ) ≤ 0) by norm_num))

/-- A product with the reciprocal of the clamped degree is the quotient by it, on every extended real. -/
theorem mul_recip_max_one (x a : EReal) : x * Ideal.div 1 (max a 1) = Ideal.div x (max a 1) := by
  unfold Ideal.div
  rw [if_neg (max_one_ne_zero a), if_neg (max_one_ne_zero a), one_mul]

/-- The layer at row `p`, column `q`. -/
def layerAt {n : Nat} (mean feat : (⟨2, ![n, 128]⟩ : Shape).Idx → EReal) (wl wr : (⟨2, ![128, 128]⟩ : Shape).Idx → EReal)
    (b : (⟨2, ![1, 128]⟩ : Shape).Idx → EReal) (p : Fin n) (q : Fin 128) : EReal :=
  ((∑ k : Fin 128, mean (ix2 p k) * wl (ix2 k q)) + b (ix2 (0 : Fin 1) q)) + ∑ k : Fin 128, feat (ix2 p k) * wr (ix2 k q)

/-- The layer as a whole array. -/
def layer {n : Nat} (mean feat : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => layerAt mean feat wl wr b (i 0) (i 1)

theorem layer_ix2 {n : Nat} (mean feat : (⟨2, ![n, 128]⟩ : Shape).Idx → EReal) (wl wr : (⟨2, ![128, 128]⟩ : Shape).Idx → EReal)
    (b : (⟨2, ![1, 128]⟩ : Shape).Idx → EReal) (p : Fin n) (q : Fin 128) :
    layer mean feat wl wr b (ix2 p q) = layerAt mean feat wl wr b p q := rfl

end Cert.Layer

end
-- ==== Proof.Region0.lean ====
/-
  Region 0 of the kernel's program (the first dense combine), read as values at the ideal instance.

  The body loads a block of 5000 rows of the neighbour means and of the node features, the two transposed weight
  matrices and the bias row, and stores (means · Wl) + bias + (features · Wr), each product a sum over the 128
  contracted columns; the casts to bf16 are the identity on the extended reals and the zero accumulator adds nothing.
  Grid point `t` handles rows 5000·t … 5000·t + 4999, the 20 points tile the 100000 rows, so the output array ends as
  the layer function of the whole input arrays as the region finds them.
-/
import proofs.«156782_j4269197492516_1_alg».proof.Proof.Gen.KernelIdeal.Frame
import proofs.«156782_j4269197492516_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The block matrix product read at an index -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product into the zero accumulator, at row `p` and column `q`: the sum over the contracted column. -/
theorem matmul_at {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The body's stored value at row `p`, column `q` of the block is the layer of the loaded blocks there. -/
theorem pay_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = Cert.Layer.layerAt x0 x1 x2 x3 x4 p q := by
  unfold k0_pay1
  simp only [shapeCast_self]
  rw [addf_apply, addf_apply, matmul_at, matmul_at, broadcastTo_1b_ab_apply]
  rfl

/-! ## From blocks to the whole array -/

variable (V : (c : Dev nD) → (b : Ref sig .tc) → Buf (Elt Ideal) ((c : Thread nD τ).loc b))

/-- The region's input arrays as it finds them, at their literal types. -/
abbrev meanArr (c : Dev nD) : Vec Ideal S100000x128 .f32 := V c main_v24
abbrev featArr (c : Dev nD) : Vec Ideal S100000x128 .f32 := V c main_arg0
abbrev wlArr (c : Dev nD) : Vec Ideal S128x128 .f32 := V c main_v25
abbrev wrArr (c : Dev nD) : Vec Ideal S128x128 .f32 := V c main_v26
abbrev bArr (c : Dev nD) : Vec Ideal S1x128 .f32 := V c main_v27

/-- What the output array ends holding: the layer of the input arrays. -/
def G (c : Dev nD) : Vec Ideal S100000x128 .f32 :=
  Cert.Layer.layer (meanArr V c) (featArr V c) (wlArr V c) (wrArr V c) (bArr V c)

theorem hz : (![0, 0] : Fin 2 → Nat) = fun _ => 0 := funext fun a => by fin_cases a <;> rfl

/-- The printed index maps over the 20 grid points: the row windows (means, features, output) sit at block
    (t, 0), the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt20 (t : Fin cfg0.N) : t.val < 20 := lt_of_lt_of_eq t.isLt N_0

/-- Row `p` of grid point `t`'s block is row 5000·t + p of the array. -/
def row (t : Fin cfg0.N) (p : Fin 5000) : Fin 100000 := ⟨t.val * 5000 + p.val, by have := lt20 t; have := p.isLt; omega⟩

theorem mean_blk (c : Dev nD) (t : Fin cfg0.N) (p : Fin 5000) (k : Fin 128) :
    iblk0 V c 0 t (ix2 p k) = meanArr V c (ix2 (row t p) k) := by
  show V c main_v24 (((cfg0.win 0).blk t).view.emb (ix2 p k)) = V c main_v24 (ix2 (row t p) k)
  obtain ⟨e0, e1, -⟩ := idx_facts t
  refine congrArg (V c main_v24) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem feat_blk (c : Dev nD) (t : Fin cfg0.N) (p : Fin 5000) (k : Fin 128) :
    iblk0 V c 1 t (ix2 p k) = featArr V c (ix2 (row t p) k) := by
  show V c main_arg0 (((cfg0.win 1).blk t).view.emb (ix2 p k)) = V c main_arg0 (ix2 (row t p) k)
  obtain ⟨-, -, e0, e1, -⟩ := idx_facts t
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem wl_blk (c : Dev nD) (t : Fin cfg0.N) (k q : Fin 128) :
    iblk0 V c 2 t (ix2 k q) = wlArr V c (ix2 k q) := by
  show V c main_v25 (((cfg0.win 2).blk t).view.emb (ix2 k q)) = V c main_v25 (ix2 k q)
  obtain ⟨-, -, -, -, e0, e1, -⟩ := idx_facts t
  refine congrArg (V c main_v25) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wr_blk (c : Dev nD) (t : Fin cfg0.N) (k q : Fin 128) :
    iblk0 V c 3 t (ix2 k q) = wrArr V c (ix2 k q) := by
  show V c main_v26 (((cfg0.win 3).blk t).view.emb (ix2 k q)) = V c main_v26 (ix2 k q)
  obtain ⟨-, -, -, -, -, -, e0, e1, -⟩ := idx_facts t
  refine congrArg (V c main_v26) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem b_blk (c : Dev nD) (t : Fin cfg0.N) (q : Fin 128) :
    iblk0 V c 4 t (ix2 (0 : Fin 1) q) = bArr V c (ix2 (0 : Fin 1) q) := by
  show V c main_v27 (((cfg0.win 4).blk t).view.emb (ix2 (0 : Fin 1) q)) = V c main_v27 (ix2 (0 : Fin 1) q)
  obtain ⟨-, -, -, -, -, -, -, -, e0, e1, -⟩ := idx_facts t
  refine congrArg (V c main_v27) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

/-- What grid point `t` writes back is its block of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hemb : ((cfg0.win 5).blk t).view.emb (ix2 p q) = ix2 (row t p) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [hemb]
  refine (pay_at (iblk0 V c 0 t) (iblk0 V c 1 t) (iblk0 V c 2 t) (iblk0 V c 3 t) (iblk0 V c 4 t) p q).trans ?_
  show _ = Cert.Layer.layerAt (meanArr V c) (featArr V c) (wlArr V c) (wrArr V c) (bArr V c) (row t p) q
  unfold Cert.Layer.layerAt
  simp only [mean_blk V c t, feat_blk V c t, wl_blk V c t, wr_blk V c t, b_blk V c t]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every row lies in the block of the point its quotient by 5000 names. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by show _ < grid0.N; rw [N_0]; omega
  refine ⟨⟨(i 0).val / 5000, ht⟩, flush0_5 _, ?_⟩
  rw [mem_blk]
  obtain ⟨-, -, -, -, -, -, -, -, -, -, e0, e1⟩ := idx_facts ⟨(i 0).val / 5000, ht⟩
  have e0' : win0_5.index ⟨(i 0).val / 5000, ht⟩ (0 : Fin 2) = (i 0).val / 5000 := e0
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- The output array after the region: the layer of the input arrays as the region finds them. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Region 1 of the kernel's program (the second dense combine), read as values at the ideal instance.

  The body loads a block of 5000 rows of the neighbour means and of the node features, the two transposed weight
  matrices and the bias row, and stores (means · Wl) + bias + (features · Wr), each product a sum over the 128
  contracted columns; the casts to bf16 are the identity on the extended reals and the zero accumulator adds nothing.
  Grid point `t` handles rows 5000·t … 5000·t + 4999, the 20 points tile the 100000 rows, so the output array ends as
  the layer function of the whole input arrays as the region finds them.
-/
import proofs.«156782_j4269197492516_1_alg».proof.Proof.Gen.KernelIdeal.Frame
import proofs.«156782_j4269197492516_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The block matrix product read at an index -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product into the zero accumulator, at row `p` and column `q`: the sum over the contracted column. -/
theorem matmul_at {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The body's stored value at row `p`, column `q` of the block is the layer of the loaded blocks there. -/
theorem pay_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = Cert.Layer.layerAt x0 x1 x2 x3 x4 p q := by
  unfold k1_pay1
  simp only [shapeCast_self]
  rw [addf_apply, addf_apply, matmul_at, matmul_at, broadcastTo_1b_ab_apply]
  rfl

/-! ## From blocks to the whole array -/

variable (V : (c : Dev nD) → (b : Ref sig .tc) → Buf (Elt Ideal) ((c : Thread nD τ).loc b))

/-- The region's input arrays as it finds them, at their literal types. -/
abbrev meanArr (c : Dev nD) : Vec Ideal S100000x128 .f32 := V c main_v40
abbrev featArr (c : Dev nD) : Vec Ideal S100000x128 .f32 := V c main_v28
abbrev wlArr (c : Dev nD) : Vec Ideal S128x128 .f32 := V c main_v41
abbrev wrArr (c : Dev nD) : Vec Ideal S128x128 .f32 := V c main_v42
abbrev bArr (c : Dev nD) : Vec Ideal S1x128 .f32 := V c main_v43

/-- What the output array ends holding: the layer of the input arrays. -/
def G (c : Dev nD) : Vec Ideal S100000x128 .f32 :=
  Cert.Layer.layer (meanArr V c) (featArr V c) (wlArr V c) (wrArr V c) (bArr V c)

theorem hz : (![0, 0] : Fin 2 → Nat) = fun _ => 0 := funext fun a => by fin_cases a <;> rfl

/-- The printed index maps over the 20 grid points: the row windows (means, features, output) sit at block
    (t, 0), the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt20 (t : Fin cfg1.N) : t.val < 20 := lt_of_lt_of_eq t.isLt N_1

/-- Row `p` of grid point `t`'s block is row 5000·t + p of the array. -/
def row (t : Fin cfg1.N) (p : Fin 5000) : Fin 100000 := ⟨t.val * 5000 + p.val, by have := lt20 t; have := p.isLt; omega⟩

theorem mean_blk (c : Dev nD) (t : Fin cfg1.N) (p : Fin 5000) (k : Fin 128) :
    iblk1 V c 0 t (ix2 p k) = meanArr V c (ix2 (row t p) k) := by
  show V c main_v40 (((cfg1.win 0).blk t).view.emb (ix2 p k)) = V c main_v40 (ix2 (row t p) k)
  obtain ⟨e0, e1, -⟩ := idx_facts t
  refine congrArg (V c main_v40) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem feat_blk (c : Dev nD) (t : Fin cfg1.N) (p : Fin 5000) (k : Fin 128) :
    iblk1 V c 1 t (ix2 p k) = featArr V c (ix2 (row t p) k) := by
  show V c main_v28 (((cfg1.win 1).blk t).view.emb (ix2 p k)) = V c main_v28 (ix2 (row t p) k)
  obtain ⟨-, -, e0, e1, -⟩ := idx_facts t
  refine congrArg (V c main_v28) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

theorem wl_blk (c : Dev nD) (t : Fin cfg1.N) (k q : Fin 128) :
    iblk1 V c 2 t (ix2 k q) = wlArr V c (ix2 k q) := by
  show V c main_v41 (((cfg1.win 2).blk t).view.emb (ix2 k q)) = V c main_v41 (ix2 k q)
  obtain ⟨-, -, -, -, e0, e1, -⟩ := idx_facts t
  refine congrArg (V c main_v41) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem wr_blk (c : Dev nD) (t : Fin cfg1.N) (k q : Fin 128) :
    iblk1 V c 3 t (ix2 k q) = wrArr V c (ix2 k q) := by
  show V c main_v42 (((cfg1.win 3).blk t).view.emb (ix2 k q)) = V c main_v42 (ix2 k q)
  obtain ⟨-, -, -, -, -, -, e0, e1, -⟩ := idx_facts t
  refine congrArg (V c main_v42) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem b_blk (c : Dev nD) (t : Fin cfg1.N) (q : Fin 128) :
    iblk1 V c 4 t (ix2 (0 : Fin 1) q) = bArr V c (ix2 (0 : Fin 1) q) := by
  show V c main_v43 (((cfg1.win 4).blk t).view.emb (ix2 (0 : Fin 1) q)) = V c main_v43 (ix2 (0 : Fin 1) q)
  obtain ⟨-, -, -, -, -, -, -, -, e0, e1, -⟩ := idx_facts t
  refine congrArg (V c main_v43) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- What grid point `t` writes back is its block of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := idx_facts t
  have hemb : ((cfg1.win 5).blk t).view.emb (ix2 p q) = ix2 (row t p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hemb]
  refine (pay_at (iblk1 V c 0 t) (iblk1 V c 1 t) (iblk1 V c 2 t) (iblk1 V c 3 t) (iblk1 V c 4 t) p q).trans ?_
  show _ = Cert.Layer.layerAt (meanArr V c) (featArr V c) (wlArr V c) (wrArr V c) (bArr V c) (row t p) q
  unfold Cert.Layer.layerAt
  simp only [mean_blk V c t, feat_blk V c t, wl_blk V c t, wr_blk V c t, b_blk V c t]

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every row lies in the block of the point its quotient by 5000 names. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by show _ < grid1.N; rw [N_1]; omega
  refine ⟨⟨(i 0).val / 5000, ht⟩, flush1_5 _, ?_⟩
  rw [mem_blk]
  obtain ⟨-, -, -, -, -, -, -, -, -, -, e0, e1⟩ := idx_facts ⟨(i 0).val / 5000, ht⟩
  have e0' : win1_5.index ⟨(i 0).val / 5000, ht⟩ (0 : Fin 2) = (i 0).val / 5000 := e0
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- The output array after the region: the layer of the input arrays as the region finds them. -/
theorem final (c : Dev nD) : (dat1 V c).arrAt 5 cfg1.N = G V c :=
  (dat1 V c).arrAt_eq_of_cover 5 (G V c) (fun t _ => flushed_eq V c t) cover

end Cert.KernelIdeal.Region1

end
-- ==== Proof.HostVal.lean ====
/-
  The host side of the kernel's program, read as values: what the stretches of host operations before each region
  leave in the buffers the regions read.

  From the edge list the program takes the source and destination node of every edge, counts the edges into each
  node, clamps the count at one and keeps its reciprocal as a column. A layer's neighbour mean is then: gather the
  source rows (a negative source index first moved up by the node count), add them into their destination rows,
  and multiply each row by that node's reciprocal. The weights are transposed and the bias is made a row.
-/
import proofs.«156782_j4269197492516_1_alg».proof.Proof.Gen.KernelIdeal.Frame
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem
open Idealize.ShloMosaic.StableHlo

variable {F : FTy → Type} [FloatOps F]

/-! ## The pieces, as functions of the arrays they read -/

/-- Every edge's source node: row 0 of the edge list. -/
def srcOf (e : IVec S2x1600000 32) : IVec S1600000 32 :=
  shapeCast _ (extractStridedSlice S1x1600000 ![0, 0] e slices_S2x1600000_S1x1600000_0_0) shapeCasts_S1x1600000_S1600000

/-- Every edge's destination node: row 1 of the edge list. -/
def dstOf (e : IVec S2x1600000 32) : IVec S1600000 32 :=
  shapeCast _ (extractStridedSlice S1x1600000 ![1, 0] e slices_S2x1600000_S1x1600000_1_0) shapeCasts_S1x1600000_S1600000

/-- Each node's in-degree: a one per edge added into the edge's destination. -/
def degOf (e : IVec S2x1600000 32) : FVec F S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 (dstOf e))
    (broadcastInDim S1600000 ![] bcast_S_S1600000 (constant S_ .f32 0x3F800000#32))

/-- The constant one over the nodes. -/
def onesN : FVec F S100000 .f32 := broadcastInDim S100000 ![] bcast_S_S100000 (constant S_ .f32 0x3F800000#32)

/-- The reciprocal of each node's clamped in-degree, as a column. -/
def invDegOf (e : IVec S2x1600000 32) : FVec F S100000x1 .f32 :=
  broadcastInDim S100000x1 ![0] bcast_S100000_S100000x1_0 (Host.divf onesN (maximumf (degOf (F := F) e) onesN))

/-- The neighbour sum of `feat`: source rows gathered (a negative source index first moved up by the node count)
    and added into destination rows. -/
def aggOf (feat : FVec F S100000x128 .f32) (src dst : IVec S1600000 32) : FVec F S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour mean of `feat`: the neighbour sum scaled, row by row, by the reciprocal column. -/
def meanOf (feat : FVec F S100000x128 .f32) (src dst : IVec S1600000 32) (inv : FVec F S100000x1 .f32) : FVec F S100000x128 .f32 :=
  mulf (aggOf feat src dst) (broadcastInDim S100000x128 ![0, 1] bcast_S100000x1_S100000x128_0_1 inv)

/-- A weight matrix transposed. -/
def wT (w : FVec F S128x128 .f32) : FVec F S128x128 .f32 := transpose S128x128 [1, 0] w transposes_S128x128_S128x128_1_0

/-- A bias vector as a row. -/
def bRow (b : FVec F S128 .f32) : FVec F S1x128 .f32 := broadcastInDim S1x128 ![1] bcast_S128_S1x128_1 b

variable (m : (ℓ : Loc nD τ sig) → Buf (Elt F) ℓ) (ρ : Dev nD → PrngReg)

/-! ## What region 0 finds: the contents after the first stretch -/

theorem W1_mean (c : Dev nD) : W1 m ρ c (Proc.devRef .tc main_v24)
    = meanOf (m ((c : Thread nD τ).loc main_arg0)) (srcOf (m ((c : Thread nD τ).loc main_arg1))) (dstOf (m ((c : Thread nD τ).loc main_arg1))) (invDegOf (m ((c : Thread nD τ).loc main_arg1))) := by
  show StableHlo.after hostOps0 (W0 m ρ c) (Proc.devRef .tc main_v24) = _
  unfold hostOps0
  after_results_simp
  rfl

theorem W1_feat (c : Dev nD) : W1 m ρ c (Proc.devRef .tc main_arg0) = (m ((c : Thread nD τ).loc main_arg0)) := by
  show StableHlo.after hostOps0 (W0 m ρ c) (Proc.devRef .tc main_arg0) = _
  unfold hostOps0
  after_results_simp

theorem W1_wl (c : Dev nD) : W1 m ρ c (Proc.devRef .tc main_v25) = wT (m ((c : Thread nD τ).loc main_arg2)) := by
  show StableHlo.after hostOps0 (W0 m ρ c) (Proc.devRef .tc main_v25) = _
  unfold hostOps0
  after_results_simp
  rfl

theorem W1_wr (c : Dev nD) : W1 m ρ c (Proc.devRef .tc main_v26) = wT (m ((c : Thread nD τ).loc main_arg3)) := by
  show StableHlo.after hostOps0 (W0 m ρ c) (Proc.devRef .tc main_v26) = _
  unfold hostOps0
  after_results_simp
  rfl

theorem W1_b (c : Dev nD) : W1 m ρ c (Proc.devRef .tc main_v27) = bRow (m ((c : Thread nD τ).loc main_arg4)) := by
  show StableHlo.after hostOps0 (W0 m ρ c) (Proc.devRef .tc main_v27) = _
  unfold hostOps0
  after_results_simp
  rfl

/-! ## What the second stretch still reads of the first -/

theorem W1_src (c : Dev nD) : W1 m ρ c (Proc.devRef .tc main_v1) = srcOf (m ((c : Thread nD τ).loc main_arg1)) := by
  show StableHlo.after hostOps0 (W0 m ρ c) (Proc.devRef .tc main_v1) = _
  unfold hostOps0
  after_results_simp
  rfl

theorem W1_dst (c : Dev nD) : W1 m ρ c (Proc.devRef .tc main_v3) = dstOf (m ((c : Thread nD τ).loc main_arg1)) := by
  show StableHlo.after hostOps0 (W0 m ρ c) (Proc.devRef .tc main_v3) = _
  unfold hostOps0
  after_results_simp
  rfl

theorem W1_inv (c : Dev nD) : W1 m ρ c (Proc.devRef .tc main_v12) = invDegOf (m ((c : Thread nD τ).loc main_arg1)) := by
  show StableHlo.after hostOps0 (W0 m ρ c) (Proc.devRef .tc main_v12) = _
  unfold hostOps0
  after_results_simp
  rfl

theorem W1_arg5 (c : Dev nD) : W1 m ρ c (Proc.devRef .tc main_arg5) = (m ((c : Thread nD τ).loc main_arg5)) := by
  show StableHlo.after hostOps0 (W0 m ρ c) (Proc.devRef .tc main_arg5) = _
  unfold hostOps0
  after_results_simp

theorem W1_arg6 (c : Dev nD) : W1 m ρ c (Proc.devRef .tc main_arg6) = (m ((c : Thread nD τ).loc main_arg6)) := by
  show StableHlo.after hostOps0 (W0 m ρ c) (Proc.devRef .tc main_arg6) = _
  unfold hostOps0
  after_results_simp

theorem W1_arg7 (c : Dev nD) : W1 m ρ c (Proc.devRef .tc main_arg7) = (m ((c : Thread nD τ).loc main_arg7)) := by
  show StableHlo.after hostOps0 (W0 m ρ c) (Proc.devRef .tc main_arg7) = _
  unfold hostOps0
  after_results_simp

/-! ## What region 1 finds: the contents after the second stretch, over region 0's exit contents -/

theorem W3_mean (c : Dev nD) : W3 m ρ c (Proc.devRef .tc main_v40)
    = meanOf (W2 m ρ c (Proc.devRef .tc main_v28)) (W2 m ρ c (Proc.devRef .tc main_v1)) (W2 m ρ c (Proc.devRef .tc main_v3)) (W2 m ρ c (Proc.devRef .tc main_v12)) := by
  show StableHlo.after hostOps1 (W2 m ρ c) (Proc.devRef .tc main_v40) = _
  unfold hostOps1
  after_results_simp
  rfl

theorem W3_feat (c : Dev nD) : W3 m ρ c (Proc.devRef .tc main_v28) = W2 m ρ c (Proc.devRef .tc main_v28) := by
  show StableHlo.after hostOps1 (W2 m ρ c) (Proc.devRef .tc main_v28) = _
  unfold hostOps1
  after_results_simp

theorem W3_wl (c : Dev nD) : W3 m ρ c (Proc.devRef .tc main_v41) = wT (W2 m ρ c (Proc.devRef .tc main_arg5)) := by
  show StableHlo.after hostOps1 (W2 m ρ c) (Proc.devRef .tc main_v41) = _
  unfold hostOps1
  after_results_simp
  rfl

theorem W3_wr (c : Dev nD) : W3 m ρ c (Proc.devRef .tc main_v42) = wT (W2 m ρ c (Proc.devRef .tc main_arg6)) := by
  show StableHlo.after hostOps1 (W2 m ρ c) (Proc.devRef .tc main_v42) = _
  unfold hostOps1
  after_results_simp
  rfl

theorem W3_b (c : Dev nD) : W3 m ρ c (Proc.devRef .tc main_v43) = bRow (W2 m ρ c (Proc.devRef .tc main_arg7)) := by
  show StableHlo.after hostOps1 (W2 m ρ c) (Proc.devRef .tc main_v43) = _
  unfold hostOps1
  after_results_simp
  rfl

end Cert.KernelIdeal.HostVal

end
-- ==== Proof.KValue.lean ====
/-
  The kernel's program, read as one function of its arguments at the ideal instance.

  A layer is the dense combine (Proof/Layer.lean) of the neighbour mean of its input features, the features
  themselves, the transposed weights and the bias row; the program is two layers, the second reading the first's
  output both as features and, through the gather, for its neighbour mean. Region 0's output array is the first
  layer of the arguments; the second stretch of host operations reads it and three buffers of the first stretch
  (sources, destinations, reciprocal degrees), which region 0 does not touch; region 1's output is the result.
-/
import proofs.«156782_j4269197492516_1_alg».proof.Proof.KernelRun
import proofs.«156782_j4269197492516_1_alg».proof.Proof.Region0
import proofs.«156782_j4269197492516_1_alg».proof.Proof.Region1
import proofs.«156782_j4269197492516_1_alg».proof.Proof.HostVal

set_option maxRecDepth 16384

noncomputable section

namespace Cert.KernelIdeal.KValue

open Cert.KernelIdeal Cert.KernelIdeal.Gen Cert.KernelIdeal.HostVal Idealize.ShloMosaic Idealize.ShloMosaic.TcCoe Idealize.SL.Sem

/-- One layer of the kernel's program as a function of the features, the edge list, the two weights and the bias. -/
def layerOf (feat : FVec Ideal S100000x128 .f32) (e : IVec S2x1600000 32) (wl wr : FVec Ideal S128x128 .f32)
    (b : FVec Ideal S128 .f32) : FVec Ideal S100000x128 .f32 :=
  Cert.Layer.layer (meanOf feat (srcOf e) (dstOf e) (invDegOf (F := Ideal) e)) feat (wT wl) (wT wr) (bRow b)

/-- The program's result as a function of its eight arguments: two layers. -/
def outOf (x0 : FVec Ideal S100000x128 .f32) (e : IVec S2x1600000 32) (x2 x3 : FVec Ideal S128x128 .f32) (x4 : FVec Ideal S128 .f32)
    (x5 x6 : FVec Ideal S128x128 .f32) (x7 : FVec Ideal S128 .f32) : FVec Ideal S100000x128 .f32 :=
  layerOf (layerOf x0 e x2 x3 x4) e x5 x6 x7

variable (m : (ℓ : Loc nD τ sig) → Buf (Elt Ideal) ℓ) (ρ : Dev nD → PrngReg)

/-- Region 0's output array, at its exit, is the first layer of the arguments. -/
theorem W2_h1 (c : Dev nD) : W2 m ρ c (Proc.devRef .tc main_v28) = layerOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  refine (Cert.KernelIdeal.Region0.final (V1 m ρ) c).trans ?_
  show Cert.Layer.layer (W1 m ρ c (Proc.devRef .tc main_v24)) (W1 m ρ c (Proc.devRef .tc main_arg0)) (W1 m ρ c (Proc.devRef .tc main_v25))
    (W1 m ρ c (Proc.devRef .tc main_v26)) (W1 m ρ c (Proc.devRef .tc main_v27)) = _
  rw [W1_mean, W1_feat, W1_wl, W1_wr, W1_b]
  rfl

/-- The result buffer, at the last boundary, is the two layers of the arguments. -/
theorem W4_out (c : Dev nD) : W4 m ρ c (Proc.devRef .tc main_v44)
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Cert.KernelIdeal.Region1.final (V3 m ρ) c).trans ?_
  show Cert.Layer.layer (W3 m ρ c (Proc.devRef .tc main_v40)) (W3 m ρ c (Proc.devRef .tc main_v28)) (W3 m ρ c (Proc.devRef .tc main_v41))
    (W3 m ρ c (Proc.devRef .tc main_v42)) (W3 m ρ c (Proc.devRef .tc main_v43)) = _
  rw [W3_mean, W3_feat, W3_wl, W3_wr, W3_b, W2_h1,
    W2_of_ne m ρ c main_v1 (by decide), W2_of_ne m ρ c main_v3 (by decide), W2_of_ne m ρ c main_v12 (by decide),
    W2_of_ne m ρ c main_arg5 (by decide), W2_of_ne m ρ c main_arg6 (by decide), W2_of_ne m ρ c main_arg7 (by decide),
    W1_src, W1_dst, W1_inv, W1_arg5, W1_arg6, W1_arg7]
  rfl

/-- The kernel's run with its result named: the two layers of the arguments; the arguments unchanged. -/
theorem run : θ_run defs (onTc (τ := τ) (main (F := Ideal))) ⟨m, fun _ => 0, ρ⟩ (fun r => ∀ c : Dev nD,
      r.2.mem ((c.tc : Thread nD τ).loc main_v44) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_out m ρ c), (h c).2⟩)
    (Cert.KernelIdeal.RunValue.run_valued m ρ)

end Cert.KernelIdeal.KValue

end
-- ==== Proof.Bridge.lean ====
/-
  The reference's result is the kernel's function of the arguments, at the ideal instance.

  Both programs compute the same neighbour sums and in-degrees, by the same gather and scatter-add of the same
  index arrays, and a layer's dense combine is in both the sum over the contracted column of the products, plus the
  bias, plus the second such sum (Proof/Layer.lean). They differ in one place: the reference divides a neighbour sum
  by the clamped degree, the kernel multiplies it by the reciprocal of the clamped degree; the clamped degree is at
  least one, so these agree on every extended real. The second layer is the first applied to the first's output.
-/
import proofs.«156782_j4269197492516_1_alg».proof.Proof.Gen.ReferenceIdeal.Read
import proofs.«156782_j4269197492516_1_alg».proof.Proof.KValue

set_option maxRecDepth 16384

noncomputable section

namespace Cert.Bridge

open Idealize.ShloMosaic Idealize.ShloMosaic.ValueIdx
open Cert.KernelIdeal.HostVal (srcOf dstOf degOf onesN invDegOf aggOf meanOf wT bRow)
open Cert.KernelIdeal.KValue (layerOf outOf)

/-! ## The shared host pieces are the same functions in both programs -/

/-- The neighbour sum: the same scatter-add of the same gather, over the same index arrays. -/
theorem agg_eq (feat : FVec Ideal Cert.KernelIdeal.S100000x128 .f32) (e : IVec Cert.KernelIdeal.S2x1600000 32) :
    aggOf (F := Ideal) feat (srcOf e) (dstOf e) = Cert.ReferenceIdeal.Read.val_main_v13 (F := Ideal) feat e := rfl
/-- The in-degree: the same scatter-add of ones. -/
theorem deg_eq (e : IVec Cert.KernelIdeal.S2x1600000 32) : degOf (F := Ideal) e = Cert.ReferenceIdeal.Read.val_main_v17 (F := Ideal) e := rfl
/-! ## The neighbour mean -/

/-- A vector over the nodes made a column and then spread over the 128 feature columns reads, at (p, q), the vector at p. -/
theorem col_bcast_at {α : Type} (h1 : Cert.KernelIdeal.S100000.BroadcastsInDim Cert.KernelIdeal.S100000x1 ![0])
    (h2 : Cert.KernelIdeal.S100000x1.BroadcastsInDim Cert.KernelIdeal.S100000x128 ![0, 1]) (v : Cert.KernelIdeal.S100000.Idx → α) (p : Fin 100000) (q : Fin 128) :
    broadcastInDim Cert.KernelIdeal.S100000x128 ![0, 1] h2 (broadcastInDim Cert.KernelIdeal.S100000x1 ![0] h1 v) (ix2 p q) = v (ix1 p) := by
  rw [broadcastInDim_apply _ h2 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl]),
    broadcastInDim_apply _ h1 _ (ix2 p (0 : Fin 1)) (ix1 p) (fun a => match a with
      | ⟨0, _⟩ => by show p.val = if (100000 : Nat) = 1 then 0 else p.val; rw [if_neg (by decide)])]
theorem idx_col (p : Fin 100000) (q : Fin 128) : Cert.ReferenceIdeal.Read.idx_main_v20 (Cert.ReferenceIdeal.Read.idx_main_v21 (ix2 p q)) = ix1 p :=
  funext fun a => Fin.ext (by match a with | ⟨0, _⟩ => rfl)
/-- The constant one over the nodes is the extended real one at every node. -/
theorem ones_at (j : Cert.KernelIdeal.S100000.Idx) : onesN (F := Ideal) j = 1 :=
  (show onesN (F := Ideal) j = Ideal.ofBits .f32 0x3F800000#32 from rfl).trans Ideal.ofBits_one_f32
theorem ref_ones_at (j : Cert.ReferenceIdeal.S100000.Idx) : Cert.ReferenceIdeal.Read.val_main_v18 (F := Ideal) j = 1 :=
  (show Cert.ReferenceIdeal.Read.val_main_v18 (F := Ideal) j = Ideal.ofBits .f32 0x3F800000#32 from rfl).trans Ideal.ofBits_one_f32

/-- The host's quotient of two arrays, at an index. -/
theorem host_divf_at {s : Shape} {φ : FTy} (a b : FVec Ideal s φ) (j : s.Idx) : Host.divf a b j = Ideal.div (a j) (b j) := rfl

/-- The kernel's neighbour mean (sum times reciprocal of the clamped degree) is the reference's (sum over the
    clamped degree): the clamped degree is at least one. -/
theorem mean_eq (feat : FVec Ideal Cert.KernelIdeal.S100000x128 .f32) (e : IVec Cert.KernelIdeal.S2x1600000 32) :
    meanOf (F := Ideal) feat (srcOf e) (dstOf e) (invDegOf (F := Ideal) e) = Cert.ReferenceIdeal.Read.val_main_v22 (F := Ideal) feat e := by
  funext i
  obtain ⟨p, q, rfl⟩ : ∃ (p : Fin 100000) (q : Fin 128), i = ix2 p q := ⟨i 0, i 1, eq_ix2 i⟩
  rw [Cert.ReferenceIdeal.Read.val_main_v22_apply, Cert.ReferenceIdeal.Read.val_main_v21_apply, Cert.ReferenceIdeal.Read.val_main_v20_apply, Cert.ReferenceIdeal.Read.val_main_v19_apply]
  rw [idx_col, ref_ones_at]
  rw [← agg_eq, ← deg_eq]
  unfold meanOf invDegOf
  generalize aggOf (F := Ideal) feat (srcOf e) (dstOf e) = A
  generalize degOf (F := Ideal) e = Dg
  rw [mulf_apply, col_bcast_at, host_divf_at, maximumf_apply, ones_at, Ideal.hostDivf_def, Ideal.maximumf_def]
  exact Cert.Layer.mul_recip_max_one _ _

/-! ## A layer, and the two layers -/

/-- The transposed weights and the bias row are the same functions in both programs. -/
theorem wT_eq_l (w : FVec Ideal Cert.KernelIdeal.S128x128 .f32) : wT w = Cert.ReferenceIdeal.Read.val_main_v23 (F := Ideal) w := rfl
theorem wT_eq_r (w : FVec Ideal Cert.KernelIdeal.S128x128 .f32) : wT w = Cert.ReferenceIdeal.Read.val_main_v28 (F := Ideal) w := rfl
theorem bRow_eq (b : FVec Ideal Cert.KernelIdeal.S128 .f32) : bRow b = Cert.ReferenceIdeal.Read.val_main_v25 (F := Ideal) b := rfl

/-- The reference's layer, as a function of its input features, is the dense combine of its neighbour mean, the
    features, the transposed weights and the bias row: each matrix product the sum over the contracted column. -/
theorem ref_layer (feat : FVec Ideal Cert.KernelIdeal.S100000x128 .f32) (e : IVec Cert.KernelIdeal.S2x1600000 32) (wl wr : FVec Ideal Cert.KernelIdeal.S128x128 .f32)
    (b : FVec Ideal Cert.KernelIdeal.S128 .f32) :
    Cert.ReferenceIdeal.Read.val_main_v30 (F := Ideal) feat e wl wr b
      = Cert.Layer.layer (Cert.ReferenceIdeal.Read.val_main_v22 (F := Ideal) feat e) feat (Cert.ReferenceIdeal.Read.val_main_v23 (F := Ideal) wl) (Cert.ReferenceIdeal.Read.val_main_v28 (F := Ideal) wr) (Cert.ReferenceIdeal.Read.val_main_v25 (F := Ideal) b) := by
  funext i
  obtain ⟨p, q, rfl⟩ : ∃ (p : Fin 100000) (q : Fin 128), i = ix2 p q := ⟨i 0, i 1, eq_ix2 i⟩
  rw [Cert.ReferenceIdeal.Read.val_main_v30_apply, Cert.ReferenceIdeal.Read.val_main_v27_apply, Cert.ReferenceIdeal.Read.val_main_v24_apply, Cert.ReferenceIdeal.Read.val_main_v26_apply, Cert.ReferenceIdeal.Read.val_main_v29_apply,
    Cert.Layer.layer_ix2]
  generalize Cert.ReferenceIdeal.Read.val_main_v22 (F := Ideal) feat e = M
  generalize Cert.ReferenceIdeal.Read.val_main_v23 (F := Ideal) wl = WL
  generalize Cert.ReferenceIdeal.Read.val_main_v28 (F := Ideal) wr = WR
  generalize Cert.ReferenceIdeal.Read.val_main_v25 (F := Ideal) b = B
  have e1 : ∀ k, Cert.ReferenceIdeal.Read.lidx_main_v24 (ix2 p q) k = ix2 p k := fun k => funext fun a => Fin.ext (by
    match a with
    | ⟨0, _⟩ => rfl
    | ⟨1, _⟩ => rfl)
  have e2 : ∀ k, Cert.ReferenceIdeal.Read.ridx_main_v24 (ix2 p q) k = ix2 k q := fun k => funext fun a => Fin.ext (by
    match a with
    | ⟨0, _⟩ => rfl
    | ⟨1, _⟩ => rfl)
  have e3 : Cert.ReferenceIdeal.Read.idx_main_v26 (ix2 p q) = ix2 (0 : Fin 1) q := funext fun a => Fin.ext (by
    match a with
    | ⟨0, _⟩ => rfl
    | ⟨1, _⟩ => rfl)
  have e4 : ∀ k, Cert.ReferenceIdeal.Read.lidx_main_v29 (ix2 p q) k = ix2 p k := fun k => funext fun a => Fin.ext (by
    match a with
    | ⟨0, _⟩ => rfl
    | ⟨1, _⟩ => rfl)
  have e5 : ∀ k, Cert.ReferenceIdeal.Read.ridx_main_v29 (ix2 p q) k = ix2 k q := fun k => funext fun a => Fin.ext (by
    match a with
    | ⟨0, _⟩ => rfl
    | ⟨1, _⟩ => rfl)
  simp only [e1, e2, e3, e4, e5]
  rfl

/-- The reference's layer is the kernel's. -/
theorem layer_eq (feat : FVec Ideal Cert.KernelIdeal.S100000x128 .f32) (e : IVec Cert.KernelIdeal.S2x1600000 32) (wl wr : FVec Ideal Cert.KernelIdeal.S128x128 .f32)
    (b : FVec Ideal Cert.KernelIdeal.S128 .f32) :
    Cert.ReferenceIdeal.Read.val_main_v30 (F := Ideal) feat e wl wr b = layerOf feat e wl wr b := by
  rw [ref_layer, ← mean_eq, ← wT_eq_l, ← wT_eq_r, ← bRow_eq]
  unfold layerOf
  rfl

/-- The reference's second layer is its first applied to the first's output. -/
theorem ref_two_layers (x0 : FVec Ideal Cert.KernelIdeal.S100000x128 .f32) (e : IVec Cert.KernelIdeal.S2x1600000 32) (x2 x3 : FVec Ideal Cert.KernelIdeal.S128x128 .f32)
    (x4 : FVec Ideal Cert.KernelIdeal.S128 .f32) (x5 x6 : FVec Ideal Cert.KernelIdeal.S128x128 .f32) (x7 : FVec Ideal Cert.KernelIdeal.S128 .f32) :
    Cert.ReferenceIdeal.Read.val_main_v57 (F := Ideal) x0 e x2 x3 x4 x5 x6 x7
      = Cert.ReferenceIdeal.Read.val_main_v30 (F := Ideal) (Cert.ReferenceIdeal.Read.val_main_v30 (F := Ideal) x0 e x2 x3 x4) e x5 x6 x7 := rfl

/-- The reference's result is the kernel's function of the arguments. -/
theorem out_eq (x0 : FVec Ideal Cert.KernelIdeal.S100000x128 .f32) (e : IVec Cert.KernelIdeal.S2x1600000 32) (x2 x3 : FVec Ideal Cert.KernelIdeal.S128x128 .f32)
    (x4 : FVec Ideal Cert.KernelIdeal.S128 .f32) (x5 x6 : FVec Ideal Cert.KernelIdeal.S128x128 .f32) (x7 : FVec Ideal Cert.KernelIdeal.S128 .f32) :
    Cert.ReferenceIdeal.Read.val_main_v57 (F := Ideal) x0 e x2 x3 x4 x5 x6 x7 = outOf x0 e x2 x3 x4 x5 x6 x7 := by
  rw [ref_two_layers, layer_eq, layer_eq]
  unfold outOf
  rfl

end Cert.Bridge

end
-- ==== Proof.lean ====
/-
  The certificate of a two-layer GraphSAGE forward pass: a Pallas kernel for each layer's dense combine, with the
  neighbour aggregation on the host, against the plain jnp reference.

  With mean(h) the neighbour mean of the node features h over the edge list (source rows gathered, added into their
  destination rows, divided by the in-degree clamped at one), a layer is
      L(h) = mean(h) · Wlᵀ + b + h · Wrᵀ,
  and both programs compute L₂(L₁(x)). The kernel's program forms the mean as a product with the reciprocal of the
  clamped degree and runs the dense combine on blocks of 5000 rows with bf16 operands; the reference divides and uses
  one matrix product over all rows. At the ideal instance a format change is the identity, a block product into a
  zero accumulator is the plain sum over the contracted column, the twenty row blocks tile the array, and a product
  with the reciprocal of a number that is at least one is the quotient by it on every extended real: the two results
  are one function of the arguments (Proof/Bridge.lean), with no use of the inputs' finiteness.

  The three frames: the kernel's programs' are the generated frame certificates; the reference's is its generated
  run with the result dropped. The ideal pass rewrote nothing, so `preserves` is trivial.
-/
import proofs.«156782_j4269197492516_1_alg».proof.Defs
import proofs.«156782_j4269197492516_1_alg».proof.Proof.Gen.Kernel
import proofs.«156782_j4269197492516_1_alg».proof.Proof.Gen.Kernel.Skeleton
import proofs.«156782_j4269197492516_1_alg».proof.Proof.Gen.Kernel.Launch
import proofs.«156782_j4269197492516_1_alg».proof.Proof.Gen.Kernel.Points
import proofs.«156782_j4269197492516_1_alg».proof.Proof.Gen.Kernel.Frame
import proofs.«156782_j4269197492516_1_alg».proof.Proof.Gen.KernelIdeal
import proofs.«156782_j4269197492516_1_alg».proof.Proof.Gen.KernelIdeal.Skeleton
import proofs.«156782_j4269197492516_1_alg».proof.Proof.Gen.KernelIdeal.Launch
import proofs.«156782_j4269197492516_1_alg».proof.Proof.Gen.KernelIdeal.Points
import proofs.«156782_j4269197492516_1_alg».proof.Proof.Gen.KernelIdeal.Frame
import proofs.«156782_j4269197492516_1_alg».proof.Proof.Gen.ReferenceIdeal
import proofs.«156782_j4269197492516_1_alg».proof.Proof.Gen.ReferenceIdeal.Run
import proofs.«156782_j4269197492516_1_alg».proof.Proof.Gen.ReferenceIdeal.Read
import proofs.«156782_j4269197492516_1_alg».proof.Proof.Gen.Pre_finite_inputs
import proofs.«156782_j4269197492516_1_alg».proof.Proof.KValue
import proofs.«156782_j4269197492516_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the two layers of the arguments: the kernel's by its run read as values, the reference's by
    its generated run, its term the same function of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Bridge.out_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
